-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)
  reducesTo_S2x512x8x64_S_d0_1_2_3 : S2x512x8x64.ReducesTo [0, 1, 2, 3] S_
  h_S_ : 0 < S_.numel

variable [Facts]

def fn {F : FTy → Type} [FloatOps F] (main_arg0 : FVec F S2x512x8x64 .f32) (main_arg1 : FVec F S2x512x8x64 .f32) : IVec S_ 1 :=
  let main_v0 : FVec F S2x512x8x64 .f32 := Host.absf main_arg0
  let main_cst : FVec F S_ .f32 := constant S_ .f32 0x7F800000#32
  let main_v1 : FVec F S2x512x8x64 .f32 := broadcastInDim S2x512x8x64 ![] bcast_S_S2x512x8x64 main_cst
  let main_v2 : IVec S2x512x8x64 1 := cmpf .olt main_v0 main_v1
  let main_c : IVec S_ 1 := constantI S_ 1 1#1
  let main_v3 : IVec S_ 1 := (fun x v => Host.reduce IntOp.andi x v reducesTo_S2x512x8x64_S_d0_1_2_3 h_S_) main_v2 main_c
  let main_v4 : FVec F S2x512x8x64 .f32 := Host.absf main_arg1
  let main_cst_0 : FVec F S_ .f32 := constant S_ .f32 0x7F800000#32
  let main_v5 : FVec F S2x512x8x64 .f32 := broadcastInDim S2x512x8x64 ![] bcast_S_S2x512x8x64 main_cst_0
  let main_v6 : IVec S2x512x8x64 1 := cmpf .olt main_v4 main_v5
  let main_c_1 : IVec S_ 1 := constantI S_ 1 1#1
  let main_v7 : IVec S_ 1 := (fun x v => Host.reduce IntOp.andi x v reducesTo_S2x512x8x64_S_d0_1_2_3 h_S_) main_v6 main_c_1
  let main_v8 : IVec S_ 1 := andi main_v3 main_v7
  main_v8
-- ==== Kernel.lean ====
abbrev S2x512x8x64 : Shape := ⟨4, ![2, 512, 8, 64]⟩
abbrev S2x8x64x512 : Shape := ⟨4, ![2, 8, 64, 512]⟩
abbrev S2x8x512x64 : Shape := ⟨4, ![2, 8, 512, 64]⟩
abbrev S2x8x512x512 : Shape := ⟨4, ![2, 8, 512, 512]⟩
abbrev S1x1x64x512 : Shape := ⟨4, ![1, 1, 64, 512]⟩
abbrev S1x1x512x64 : Shape := ⟨4, ![1, 1, 512, 64]⟩
abbrev S1x1x512x512 : Shape := ⟨4, ![1, 1, 512, 512]⟩
abbrev S512x512 : Shape := ⟨2, ![512, 512]⟩
abbrev S1x1x1x512 : Shape := ⟨4, ![1, 1, 1, 512]⟩
abbrev S1x512 : Shape := ⟨2, ![1, 512]⟩
abbrev S1x1x512x1 : Shape := ⟨4, ![1, 1, 512, 1]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x8x64x512, .f32⟩
  | .hbm, ⟨3, _⟩ => ⟨S2x8x512x64, .f32⟩
  | .hbm, ⟨4, _⟩ => ⟨S2x8x512x512, .f32⟩
  | .local _ .vmem, ⟨0, _⟩ => ⟨S1x1x64x512, .f32⟩
  | .local _ .vmem, ⟨1, _⟩ => ⟨S1x1x64x512, .f32⟩
  | .local _ .vmem, ⟨2, _⟩ => ⟨S1x1x512x64, .f32⟩
  | .local _ .vmem, ⟨3, _⟩ => ⟨S1x1x512x64, .f32⟩
  | .local _ .vmem, ⟨4, _⟩ => ⟨S1x1x512x512, .f32⟩
  | .local _ .vmem, ⟨5, _⟩ => ⟨S1x1x512x512, .f32⟩
  | .local _ .vmem, ⟨6, _⟩ => ⟨S512x512, .f32⟩
  | _, _ => ⟨S2x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S2x512x8x64_S2x8x64x512_0_2_3_1 : S2x512x8x64.Transposes [0, 2, 3, 1] S2x8x64x512
  transposes_S2x512x8x64_S2x8x512x64_0_2_1_3 : S2x512x8x64.Transposes [0, 2, 1, 3] S2x8x512x64
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x1x64x512_S1x1x1x512_0_0_0_0 : ∀ a, (![0, 0, 0, 0] : Fin 4 → Nat) a + S1x1x1x512.size a ≤ S1x1x64x512.size a
  h_S1x1x1x512 : 0 < S1x1x1x512.numel
  shapeCasts_S1x1x1x512_S1x512 : S1x1x1x512.ShapeCasts S1x512
  inb_S1x1x512x64_S1x1x512x1_0_0_0_0 : ∀ a, (![0, 0, 0, 0] : Fin 4 → Nat) a + S1x1x512x1.size a ≤ S1x1x512x64.size a
  h_S1x1x512x1 : 0 < S1x1x512x1.numel
  shapeCasts_S1x1x512x1_S512x1 : S1x1x512x1.ShapeCasts S512x1
  broadcasts_S512x1_S512x512 : S512x1.Broadcasts S512x512
  broadcasts_S1x512_S512x512 : S1x512.Broadcasts S512x512
  inb_S1x1x64x512_S1x1x1x512_0_0_1_0 : ∀ a, (![0, 0, 1, 0] : Fin 4 → Nat) a + S1x1x1x512.size a ≤ S1x1x64x512.size a
  inb_S1x1x512x64_S1x1x512x1_0_0_0_1 : ∀ a, (![0, 0, 0, 1] : Fin 4 → Nat) a + S1x1x512x1.size a ≤ S1x1x512x64.size a
  inb_S1x1x64x512_S1x1x1x512_0_0_2_0 : ∀ a, (![0, 0, 2, 0] : Fin 4 → Nat) a + S1x1x1x512.size a ≤ S1x1x64x512.size a
  inb_S1x1x512x64_S1x1x512x1_0_0_0_2 : ∀ a, (![0, 0, 0, 2] : Fin 4 → Nat) a + S1x1x512x1.size a ≤ S1x1x512x64.size a
  inb_S1x1x64x512_S1x1x1x512_0_0_3_0 : ∀ a, (![0, 0, 3, 0] : Fin 4 → Nat) a + S1x1x1x512.size a ≤ S1x1x64x512.size a
  inb_S1x1x512x64_S1x1x512x1_0_0_0_3 : ∀ a, (![0, 0, 0, 3] : Fin 4 → Nat) a + S1x1x512x1.size a ≤ S1x1x512x64.size a
  inb_S1x1x64x512_S1x1x1x512_0_0_4_0 : ∀ a, (![0, 0, 4, 0] : Fin 4 → Nat) a + S1x1x1x512.size a ≤ S1x1x64x512.size a
  inb_S1x1x512x64_S1x1x512x1_0_0_0_4 : ∀ a, (![0, 0, 0, 4] : Fin 4 → Nat) a + S1x1x512x1.size a ≤ S1x1x512x64.size a
  inb_S1x1x64x512_S1x1x1x512_0_0_5_0 : ∀ a, (![0, 0, 5, 0] : Fin 4 → Nat) a + S1x1x1x512.size a ≤ S1x1x64x512.size a
  inb_S1x1x512x64_S1x1x512x1_0_0_0_5 : ∀ a, (![0, 0, 0, 5] : Fin 4 → Nat) a + S1x1x512x1.size a ≤ S1x1x512x64.size a
  inb_S1x1x64x512_S1x1x1x512_0_0_6_0 : ∀ a, (![0, 0, 6, 0] : Fin 4 → Nat) a + S1x1x1x512.size a ≤ S1x1x64x512.size a
  inb_S1x1x512x64_S1x1x512x1_0_0_0_6 : ∀ a, (![0, 0, 0, 6] : Fin 4 → Nat) a + S1x1x512x1.size a ≤ S1x1x512x64.size a
  inb_S1x1x64x512_S1x1x1x512_0_0_7_0 : ∀ a, (![0, 0, 7, 0] : Fin 4 → Nat) a + S1x1x1x512.size a ≤ S1x1x64x512.size a
  inb_S1x1x512x64_S1x1x512x1_0_0_0_7 : ∀ a, (![0, 0, 0, 7] : Fin 4 → Nat) a + S1x1x512x1.size a ≤ S1x1x512x64.size a
  inb_S1x1x64x512_S1x1x1x512_0_0_8_0 : ∀ a, (![0, 0, 8, 0] : Fin 4 → Nat) a + S1x1x1x512.size a ≤ S1x1x64x512.size a
  inb_S1x1x512x64_S1x1x512x1_0_0_0_8 : ∀ a, (![0, 0, 0, 8] : Fin 4 → Nat) a + S1x1x512x1.size a ≤ S1x1x512x64.size a
  inb_S1x1x64x512_S1x1x1x512_0_0_9_0 : ∀ a, (![0, 0, 9, 0] : Fin 4 → Nat) a + S1x1x1x512.size a ≤ S1x1x64x512.size a
  inb_S1x1x512x64_S1x1x512x1_0_0_0_9 : ∀ a, (![0, 0, 0, 9] : Fin 4 → Nat) a + S1x1x512x1.size a ≤ S1x1x512x64.size a
  inb_S1x1x64x512_S1x1x1x512_0_0_10_0 : ∀ a, (![0, 0, 10, 0] : Fin 4 → Nat) a + S1x1x1x512.size a ≤ S1x1x64x512.size a
  inb_S1x1x512x64_S1x1x512x1_0_0_0_10 : ∀ a, (![0, 0, 0, 10] : Fin 4 → Nat) a + S1x1x512x1.size a ≤ S1x1x512x64.size a
  inb_S1x1x64x512_S1x1x1x512_0_0_11_0 : ∀ a, (![0, 0, 11, 0] : Fin 4 → Nat) a + S1x1x1x512.size a ≤ S1x1x64x512.size a
  inb_S1x1x512x64_S1x1x512x1_0_0_0_11 : ∀ a, (![0, 0, 0, 11] : Fin 4 → Nat) a + S1x1x512x1.size a ≤ S1x1x512x64.size a
  inb_S1x1x64x512_S1x1x1x512_0_0_12_0 : ∀ a, (![0, 0, 12, 0] : Fin 4 → Nat) a + S1x1x1x512.size a ≤ S1x1x64x512.size a
  inb_S1x1x512x64_S1x1x512x1_0_0_0_12 : ∀ a, (![0, 0, 0, 12] : Fin 4 → Nat) a + S1x1x512x1.size a ≤ S1x1x512x64.size a
  inb_S1x1x64x512_S1x1x1x512_0_0_13_0 : ∀ a, (![0, 0, 13, 0] : Fin 4 → Nat) a + S1x1x1x512.size a ≤ S1x1x64x512.size a
  inb_S1x1x512x64_S1x1x512x1_0_0_0_13 : ∀ a, (![0, 0, 0, 13] : Fin 4 → Nat) a + S1x1x512x1.size a ≤ S1x1x512x64.size a
  inb_S1x1x64x512_S1x1x1x512_0_0_14_0 : ∀ a, (![0, 0, 14, 0] : Fin 4 → Nat) a + S1x1x1x512.size a ≤ S1x1x64x512.size a
  inb_S1x1x512x64_S1x1x512x1_0_0_0_14 : ∀ a, (![0, 0, 0, 14] : Fin 4 → Nat) a + S1x1x512x1.size a ≤ S1x1x512x64.size a
  inb_S1x1x64x512_S1x1x1x512_0_0_15_0 : ∀ a, (![0, 0, 15, 0] : Fin 4 → Nat) a + S1x1x1x512.size a ≤ S1x1x64x512.size a
  inb_S1x1x512x64_S1x1x512x1_0_0_0_15 : ∀ a, (![0, 0, 0, 15] : Fin 4 → Nat) a + S1x1x512x1.size a ≤ S1x1x512x64.size a
  inb_S1x1x64x512_S1x1x1x512_0_0_16_0 : ∀ a, (![0, 0, 16, 0] : Fin 4 → Nat) a + S1x1x1x512.size a ≤ S1x1x64x512.size a
  inb_S1x1x512x64_S1x1x512x1_0_0_0_16 : ∀ a, (![0, 0, 0, 16] : Fin 4 → Nat) a + S1x1x512x1.size a ≤ S1x1x512x64.size a
  inb_S1x1x64x512_S1x1x1x512_0_0_17_0 : ∀ a, (![0, 0, 17, 0] : Fin 4 → Nat) a + S1x1x1x512.size a ≤ S1x1x64x512.size a
  inb_S1x1x512x64_S1x1x512x1_0_0_0_17 : ∀ a, (![0, 0, 0, 17] : Fin 4 → Nat) a + S1x1x512x1.size a ≤ S1x1x512x64.size a
  inb_S1x1x64x512_S1x1x1x512_0_0_18_0 : ∀ a, (![0, 0, 18, 0] : Fin 4 → Nat) a + S1x1x1x512.size a ≤ S1x1x64x512.size a
  inb_S1x1x512x64_S1x1x512x1_0_0_0_18 : ∀ a, (![0, 0, 0, 18] : Fin 4 → Nat) a + S1x1x512x1.size a ≤ S1x1x512x64.size a
  inb_S1x1x64x512_S1x1x1x512_0_0_19_0 : ∀ a, (![0, 0, 19, 0] : Fin 4 → Nat) a + S1x1x1x512.size a ≤ S1x1x64x512.size a
  inb_S1x1x512x64_S1x1x512x1_0_0_0_19 : ∀ a, (![0, 0, 0, 19] : Fin 4 → Nat) a + S1x1x512x1.size a ≤ S1x1x512x64.size a
  inb_S1x1x64x512_S1x1x1x512_0_0_20_0 : ∀ a, (![0, 0, 20, 0] : Fin 4 → Nat) a + S1x1x1x512.size a ≤ S1x1x64x512.size a
  inb_S1x1x512x64_S1x1x512x1_0_0_0_20 : ∀ a, (![0, 0, 0, 20] : Fin 4 → Nat) a + S1x1x512x1.size a ≤ S1x1x512x64.size a
  inb_S1x1x64x512_S1x1x1x512_0_0_21_0 : ∀ a, (![0, 0, 21, 0] : Fin 4 → Nat) a + S1x1x1x512.size a ≤ S1x1x64x512.size a
  inb_S1x1x512x64_S1x1x512x1_0_0_0_21 : ∀ a, (![0, 0, 0, 21] : Fin 4 → Nat) a + S1x1x512x1.size a ≤ S1x1x512x64.size a
  inb_S1x1x64x512_S1x1x1x512_0_0_22_0 : ∀ a, (![0, 0, 22, 0] : Fin 4 → Nat) a + S1x1x1x512.size a ≤ S1x1x64x512.size a
  inb_S1x1x512x64_S1x1x512x1_0_0_0_22 : ∀ a, (![0, 0, 0, 22] : Fin 4 → Nat) a + S1x1x512x1.size a ≤ S1x1x512x64.size a
  inb_S1x1x64x512_S1x1x1x512_0_0_23_0 : ∀ a, (![0, 0, 23, 0] : Fin 4 → Nat) a + S1x1x1x512.size a ≤ S1x1x64x512.size a
  inb_S1x1x512x64_S1x1x512x1_0_0_0_23 : ∀ a, (![0, 0, 0, 23] : Fin 4 → Nat) a + S1x1x512x1.size a ≤ S1x1x512x64.size a
  inb_S1x1x64x512_S1x1x1x512_0_0_24_0 : ∀ a, (![0, 0, 24, 0] : Fin 4 → Nat) a + S1x1x1x512.size a ≤ S1x1x64x512.size a
  inb_S1x1x512x64_S1x1x512x1_0_0_0_24 : ∀ a, (![0, 0, 0, 24] : Fin 4 → Nat) a + S1x1x512x1.size a ≤ S1x1x512x64.size a
  inb_S1x1x64x512_S1x1x1x512_0_0_25_0 : ∀ a, (![0, 0, 25, 0] : Fin 4 → Nat) a + S1x1x1x512.size a ≤ S1x1x64x512.size a
  inb_S1x1x512x64_S1x1x512x1_0_0_0_25 : ∀ a, (![0, 0, 0, 25] : Fin 4 → Nat) a + S1x1x512x1.size a ≤ S1x1x512x64.size a
  inb_S1x1x64x512_S1x1x1x512_0_0_26_0 : ∀ a, (![0, 0, 26, 0] : Fin 4 → Nat) a + S1x1x1x512.size a ≤ S1x1x64x512.size a
  inb_S1x1x512x64_S1x1x512x1_0_0_0_26 : ∀ a, (![0, 0, 0, 26] : Fin 4 → Nat) a + S1x1x512x1.size a ≤ S1x1x512x64.size a
  inb_S1x1x64x512_S1x1x1x512_0_0_27_0 : ∀ a, (![0, 0, 27, 0] : Fin 4 → Nat) a + S1x1x1x512.size a ≤ S1x1x64x512.size a
  inb_S1x1x512x64_S1x1x512x1_0_0_0_27 : ∀ a, (![0, 0, 0, 27] : Fin 4 → Nat) a + S1x1x512x1.size a ≤ S1x1x512x64.size a
  inb_S1x1x64x512_S1x1x1x512_0_0_28_0 : ∀ a, (![0, 0, 28, 0] : Fin 4 → Nat) a + S1x1x1x512.size a ≤ S1x1x64x512.size a
  inb_S1x1x512x64_S1x1x512x1_0_0_0_28 : ∀ a, (![0, 0, 0, 28] : Fin 4 → Nat) a + S1x1x512x1.size a ≤ S1x1x512x64.size a
  inb_S1x1x64x512_S1x1x1x512_0_0_29_0 : ∀ a, (![0, 0, 29, 0] : Fin 4 → Nat) a + S1x1x1x512.size a ≤ S1x1x64x512.size a
  inb_S1x1x512x64_S1x1x512x1_0_0_0_29 : ∀ a, (![0, 0, 0, 29] : Fin 4 → Nat) a + S1x1x512x1.size a ≤ S1x1x512x64.size a
  inb_S1x1x64x512_S1x1x1x512_0_0_30_0 : ∀ a, (![0, 0, 30, 0] : Fin 4 → Nat) a + S1x1x1x512.size a ≤ S1x1x64x512.size a
  inb_S1x1x512x64_S1x1x512x1_0_0_0_30 : ∀ a, (![0, 0, 0, 30] : Fin 4 → Nat) a + S1x1x512x1.size a ≤ S1x1x512x64.size a
  inb_S1x1x64x512_S1x1x1x512_0_0_31_0 : ∀ a, (![0, 0, 31, 0] : Fin 4 → Nat) a + S1x1x1x512.size a ≤ S1x1x64x512.size a
  inb_S1x1x512x64_S1x1x512x1_0_0_0_31 : ∀ a, (![0, 0, 0, 31] : Fin 4 → Nat) a + S1x1x512x1.size a ≤ S1x1x512x64.size a
  inb_S1x1x64x512_S1x1x1x512_0_0_32_0 : ∀ a, (![0, 0, 32, 0] : Fin 4 → Nat) a + S1x1x1x512.size a ≤ S1x1x64x512.size a
  inb_S1x1x512x64_S1x1x512x1_0_0_0_32 : ∀ a, (![0, 0, 0, 32] : Fin 4 → Nat) a + S1x1x512x1.size a ≤ S1x1x512x64.size a
  inb_S1x1x64x512_S1x1x1x512_0_0_33_0 : ∀ a, (![0, 0, 33, 0] : Fin 4 → Nat) a + S1x1x1x512.size a ≤ S1x1x64x512.size a
  inb_S1x1x512x64_S1x1x512x1_0_0_0_33 : ∀ a, (![0, 0, 0, 33] : Fin 4 → Nat) a + S1x1x512x1.size a ≤ S1x1x512x64.size a
  inb_S1x1x64x512_S1x1x1x512_0_0_34_0 : ∀ a, (![0, 0, 34, 0] : Fin 4 → Nat) a + S1x1x1x512.size a ≤ S1x1x64x512.size a
  inb_S1x1x512x64_S1x1x512x1_0_0_0_34 : ∀ a, (![0, 0, 0, 34] : Fin 4 → Nat) a + S1x1x512x1.size a ≤ S1x1x512x64.size a
  inb_S1x1x64x512_S1x1x1x512_0_0_35_0 : ∀ a, (![0, 0, 35, 0] : Fin 4 → Nat) a + S1x1x1x512.size a ≤ S1x1x64x512.size a
  inb_S1x1x512x64_S1x1x512x1_0_0_0_35 : ∀ a, (![0, 0, 0, 35] : Fin 4 → Nat) a + S1x1x512x1.size a ≤ S1x1x512x64.size a
  inb_S1x1x64x512_S1x1x1x512_0_0_36_0 : ∀ a, (![0, 0, 36, 0] : Fin 4 → Nat) a + S1x1x1x512.size a ≤ S1x1x64x512.size a
  inb_S1x1x512x64_S1x1x512x1_0_0_0_36 : ∀ a, (![0, 0, 0, 36] : Fin 4 → Nat) a + S1x1x512x1.size a ≤ S1x1x512x64.size a
  inb_S1x1x64x512_S1x1x1x512_0_0_37_0 : ∀ a, (![0, 0, 37, 0] : Fin 4 → Nat) a + S1x1x1x512.size a ≤ S1x1x64x512.size a
  inb_S1x1x512x64_S1x1x512x1_0_0_0_37 : ∀ a, (![0, 0, 0, 37] : Fin 4 → Nat) a + S1x1x512x1.size a ≤ S1x1x512x64.size a
  inb_S1x1x64x512_S1x1x1x512_0_0_38_0 : ∀ a, (![0, 0, 38, 0] : Fin 4 → Nat) a + S1x1x1x512.size a ≤ S1x1x64x512.size a
  inb_S1x1x512x64_S1x1x512x1_0_0_0_38 : ∀ a, (![0, 0, 0, 38] : Fin 4 → Nat) a + S1x1x512x1.size a ≤ S1x1x512x64.size a
  inb_S1x1x64x512_S1x1x1x512_0_0_39_0 : ∀ a, (![0, 0, 39, 0] : Fin 4 → Nat) a + S1x1x1x512.size a ≤ S1x1x64x512.size a
  inb_S1x1x512x64_S1x1x512x1_0_0_0_39 : ∀ a, (![0, 0, 0, 39] : Fin 4 → Nat) a + S1x1x512x1.size a ≤ S1x1x512x64.size a
  inb_S1x1x64x512_S1x1x1x512_0_0_40_0 : ∀ a, (![0, 0, 40, 0] : Fin 4 → Nat) a + S1x1x1x512.size a ≤ S1x1x64x512.size a
  inb_S1x1x512x64_S1x1x512x1_0_0_0_40 : ∀ a, (![0, 0, 0, 40] : Fin 4 → Nat) a + S1x1x512x1.size a ≤ S1x1x512x64.size a
  inb_S1x1x64x512_S1x1x1x512_0_0_41_0 : ∀ a, (![0, 0, 41, 0] : Fin 4 → Nat) a + S1x1x1x512.size a ≤ S1x1x64x512.size a
  inb_S1x1x512x64_S1x1x512x1_0_0_0_41 : ∀ a, (![0, 0, 0, 41] : Fin 4 → Nat) a + S1x1x512x1.size a ≤ S1x1x512x64.size a
  inb_S1x1x64x512_S1x1x1x512_0_0_42_0 : ∀ a, (![0, 0, 42, 0] : Fin 4 → Nat) a + S1x1x1x512.size a ≤ S1x1x64x512.size a
  inb_S1x1x512x64_S1x1x512x1_0_0_0_42 : ∀ a, (![0, 0, 0, 42] : Fin 4 → Nat) a + S1x1x512x1.size a ≤ S1x1x512x64.size a
  inb_S1x1x64x512_S1x1x1x512_0_0_43_0 : ∀ a, (![0, 0, 43, 0] : Fin 4 → Nat) a + S1x1x1x512.size a ≤ S1x1x64x512.size a
  inb_S1x1x512x64_S1x1x512x1_0_0_0_43 : ∀ a, (![0, 0, 0, 43] : Fin 4 → Nat) a + S1x1x512x1.size a ≤ S1x1x512x64.size a
  inb_S1x1x64x512_S1x1x1x512_0_0_44_0 : ∀ a, (![0, 0, 44, 0] : Fin 4 → Nat) a + S1x1x1x512.size a ≤ S1x1x64x512.size a
  inb_S1x1x512x64_S1x1x512x1_0_0_0_44 : ∀ a, (![0, 0, 0, 44] : Fin 4 → Nat) a + S1x1x512x1.size a ≤ S1x1x512x64.size a
  inb_S1x1x64x512_S1x1x1x512_0_0_45_0 : ∀ a, (![0, 0, 45, 0] : Fin 4 → Nat) a + S1x1x1x512.size a ≤ S1x1x64x512.size a
  inb_S1x1x512x64_S1x1x512x1_0_0_0_45 : ∀ a, (![0, 0, 0, 45] : Fin 4 → Nat) a + S1x1x512x1.size a ≤ S1x1x512x64.size a
  inb_S1x1x64x512_S1x1x1x512_0_0_46_0 : ∀ a, (![0, 0, 46, 0] : Fin 4 → Nat) a + S1x1x1x512.size a ≤ S1x1x64x512.size a
  inb_S1x1x512x64_S1x1x512x1_0_0_0_46 : ∀ a, (![0, 0, 0, 46] : Fin 4 → Nat) a + S1x1x512x1.size a ≤ S1x1x512x64.size a
  inb_S1x1x64x512_S1x1x1x512_0_0_47_0 : ∀ a, (![0, 0, 47, 0] : Fin 4 → Nat) a + S1x1x1x512.size a ≤ S1x1x64x512.size a
  inb_S1x1x512x64_S1x1x512x1_0_0_0_47 : ∀ a, (![0, 0, 0, 47] : Fin 4 → Nat) a + S1x1x512x1.size a ≤ S1x1x512x64.size a
  inb_S1x1x64x512_S1x1x1x512_0_0_48_0 : ∀ a, (![0, 0, 48, 0] : Fin 4 → Nat) a + S1x1x1x512.size a ≤ S1x1x64x512.size a
  inb_S1x1x512x64_S1x1x512x1_0_0_0_48 : ∀ a, (![0, 0, 0, 48] : Fin 4 → Nat) a + S1x1x512x1.size a ≤ S1x1x512x64.size a
  inb_S1x1x64x512_S1x1x1x512_0_0_49_0 : ∀ a, (![0, 0, 49, 0] : Fin 4 → Nat) a + S1x1x1x512.size a ≤ S1x1x64x512.size a
  inb_S1x1x512x64_S1x1x512x1_0_0_0_49 : ∀ a, (![0, 0, 0, 49] : Fin 4 → Nat) a + S1x1x512x1.size a ≤ S1x1x512x64.size a
  inb_S1x1x64x512_S1x1x1x512_0_0_50_0 : ∀ a, (![0, 0, 50, 0] : Fin 4 → Nat) a + S1x1x1x512.size a ≤ S1x1x64x512.size a
  inb_S1x1x512x64_S1x1x512x1_0_0_0_50 : ∀ a, (![0, 0, 0, 50] : Fin 4 → Nat) a + S1x1x512x1.size a ≤ S1x1x512x64.size a
  inb_S1x1x64x512_S1x1x1x512_0_0_51_0 : ∀ a, (![0, 0, 51, 0] : Fin 4 → Nat) a + S1x1x1x512.size a ≤ S1x1x64x512.size a
  inb_S1x1x512x64_S1x1x512x1_0_0_0_51 : ∀ a, (![0, 0, 0, 51] : Fin 4 → Nat) a + S1x1x512x1.size a ≤ S1x1x512x64.size a
  inb_S1x1x64x512_S1x1x1x512_0_0_52_0 : ∀ a, (![0, 0, 52, 0] : Fin 4 → Nat) a + S1x1x1x512.size a ≤ S1x1x64x512.size a
  inb_S1x1x512x64_S1x1x512x1_0_0_0_52 : ∀ a, (![0, 0, 0, 52] : Fin 4 → Nat) a + S1x1x512x1.size a ≤ S1x1x512x64.size a
  inb_S1x1x64x512_S1x1x1x512_0_0_53_0 : ∀ a, (![0, 0, 53, 0] : Fin 4 → Nat) a + S1x1x1x512.size a ≤ S1x1x64x512.size a
  inb_S1x1x512x64_S1x1x512x1_0_0_0_53 : ∀ a, (![0, 0, 0, 53] : Fin 4 → Nat) a + S1x1x512x1.size a ≤ S1x1x512x64.size a
  inb_S1x1x64x512_S1x1x1x512_0_0_54_0 : ∀ a, (![0, 0, 54, 0] : Fin 4 → Nat) a + S1x1x1x512.size a ≤ S1x1x64x512.size a
  inb_S1x1x512x64_S1x1x512x1_0_0_0_54 : ∀ a, (![0, 0, 0, 54] : Fin 4 → Nat) a + S1x1x512x1.size a ≤ S1x1x512x64.size a
  inb_S1x1x64x512_S1x1x1x512_0_0_55_0 : ∀ a, (![0, 0, 55, 0] : Fin 4 → Nat) a + S1x1x1x512.size a ≤ S1x1x64x512.size a
  inb_S1x1x512x64_S1x1x512x1_0_0_0_55 : ∀ a, (![0, 0, 0, 55] : Fin 4 → Nat) a + S1x1x512x1.size a ≤ S1x1x512x64.size a
  inb_S1x1x64x512_S1x1x1x512_0_0_56_0 : ∀ a, (![0, 0, 56, 0] : Fin 4 → Nat) a + S1x1x1x512.size a ≤ S1x1x64x512.size a
  inb_S1x1x512x64_S1x1x512x1_0_0_0_56 : ∀ a, (![0, 0, 0, 56] : Fin 4 → Nat) a + S1x1x512x1.size a ≤ S1x1x512x64.size a
  inb_S1x1x64x512_S1x1x1x512_0_0_57_0 : ∀ a, (![0, 0, 57, 0] : Fin 4 → Nat) a + S1x1x1x512.size a ≤ S1x1x64x512.size a
  inb_S1x1x512x64_S1x1x512x1_0_0_0_57 : ∀ a, (![0, 0, 0, 57] : Fin 4 → Nat) a + S1x1x512x1.size a ≤ S1x1x512x64.size a
  inb_S1x1x64x512_S1x1x1x512_0_0_58_0 : ∀ a, (![0, 0, 58, 0] : Fin 4 → Nat) a + S1x1x1x512.size a ≤ S1x1x64x512.size a
  inb_S1x1x512x64_S1x1x512x1_0_0_0_58 : ∀ a, (![0, 0, 0, 58] : Fin 4 → Nat) a + S1x1x512x1.size a ≤ S1x1x512x64.size a
  inb_S1x1x64x512_S1x1x1x512_0_0_59_0 : ∀ a, (![0, 0, 59, 0] : Fin 4 → Nat) a + S1x1x1x512.size a ≤ S1x1x64x512.size a
  inb_S1x1x512x64_S1x1x512x1_0_0_0_59 : ∀ a, (![0, 0, 0, 59] : Fin 4 → Nat) a + S1x1x512x1.size a ≤ S1x1x512x64.size a
  inb_S1x1x64x512_S1x1x1x512_0_0_60_0 : ∀ a, (![0, 0, 60, 0] : Fin 4 → Nat) a + S1x1x1x512.size a ≤ S1x1x64x512.size a
  inb_S1x1x512x64_S1x1x512x1_0_0_0_60 : ∀ a, (![0, 0, 0, 60] : Fin 4 → Nat) a + S1x1x512x1.size a ≤ S1x1x512x64.size a
  inb_S1x1x64x512_S1x1x1x512_0_0_61_0 : ∀ a, (![0, 0, 61, 0] : Fin 4 → Nat) a + S1x1x1x512.size a ≤ S1x1x64x512.size a
  inb_S1x1x512x64_S1x1x512x1_0_0_0_61 : ∀ a, (![0, 0, 0, 61] : Fin 4 → Nat) a + S1x1x512x1.size a ≤ S1x1x512x64.size a
  inb_S1x1x64x512_S1x1x1x512_0_0_62_0 : ∀ a, (![0, 0, 62, 0] : Fin 4 → Nat) a + S1x1x1x512.size a ≤ S1x1x64x512.size a
  inb_S1x1x512x64_S1x1x512x1_0_0_0_62 : ∀ a, (![0, 0, 0, 62] : Fin 4 → Nat) a + S1x1x512x1.size a ≤ S1x1x512x64.size a
  inb_S1x1x64x512_S1x1x1x512_0_0_63_0 : ∀ a, (![0, 0, 63, 0] : Fin 4 → Nat) a + S1x1x1x512.size a ≤ S1x1x64x512.size a
  inb_S1x1x512x64_S1x1x512x1_0_0_0_63 : ∀ a, (![0, 0, 0, 63] : Fin 4 → Nat) a + S1x1x512x1.size a ≤ S1x1x512x64.size a
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  shapeCasts_S512x512_S1x1x512x512 : S512x512.ShapeCasts S1x1x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x64x512.size a ≤ S2x8x64x512.size a
  hwx0_0 : ∀ i : grid0.Coords, EltTy.bits .f32 = 32 ∨ (Rect.block (s := S2x8x64x512) S1x1x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x64.size a ≤ S2x8x512x64.size a
  hwx0_1 : ∀ i : grid0.Coords, EltTy.bits .f32 = 32 ∨ (Rect.block (s := S2x8x512x64) S1x1x512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S2x8x512x512.size a
  hwx0_2 : ∀ i : grid0.Coords, EltTy.bits .f32 = 32 ∨ (Rect.block (s := S2x8x512x512) S1x1x512x512.size (cc0_transform_2 i) (hinb0_2 i)).WholeWords (EltTy.packing .f32)

variable [Facts₀]

abbrev win0_0 : Pipeline.Window sig grid0 :=
  Pipeline.Window.ofSpec (Memref.whole main_v0) S1x1x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x512x8x64 : Shape := ⟨4, ![2, 512, 8, 64]⟩
abbrev S2x8x512x64 : Shape := ⟨4, ![2, 8, 512, 64]⟩
abbrev S2x8x1x512x64 : Shape := ⟨5, ![2, 8, 1, 512, 64]⟩
abbrev S2x8x512x1x64 : Shape := ⟨5, ![2, 8, 512, 1, 64]⟩
abbrev S2x8x512x512x64 : Shape := ⟨5, ![2, 8, 512, 512, 64]⟩
abbrev S_ : Shape := ⟨0, ![]⟩
abbrev S2x8x512x512 : Shape := ⟨4, ![2, 8, 512, 512]⟩

abbrev nBuf : Space → Nat
  | .hbm => 15
  | .vmem => 0
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x8x512x64, .f32⟩
  | .hbm, ⟨3, _⟩ => ⟨S2x8x512x64, .f32⟩
  | .hbm, ⟨4, _⟩ => ⟨S2x8x1x512x64, .f32⟩
  | .hbm, ⟨5, _⟩ => ⟨S2x8x512x1x64, .f32⟩
  | .hbm, ⟨6, _⟩ => ⟨S2x8x512x512x64, .f32⟩
  | .hbm, ⟨7, _⟩ => ⟨S2x8x512x512x64, .f32⟩
  | .hbm, ⟨8, _⟩ => ⟨S2x8x512x512x64, .f32⟩
  | .hbm, ⟨9, _⟩ => ⟨S2x8x512x512x64, .f32⟩
  | .hbm, ⟨10, _⟩ => ⟨S_, .f32⟩
  | .hbm, ⟨11, _⟩ => ⟨S2x8x512x512, .f32⟩
  | .hbm, ⟨12, _⟩ => ⟨S_, .f32⟩
  | .hbm, ⟨13, _⟩ => ⟨S2x8x512x512, .f32⟩
  | .hbm, ⟨14, _⟩ => ⟨S2x8x512x512, .f32⟩
  | _, _ => ⟨S2x512x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  transposes_S2x512x8x64_S2x8x512x64_0_2_1_3 : S2x512x8x64.Transposes [0, 2, 1, 3] S2x8x512x64
  bcast_S2x8x512x64_S2x8x1x512x64_0_1_3_4 : S2x8x512x64.BroadcastsInDim S2x8x1x512x64 (![0, 1, 3, 4] : Fin 4 → Fin S2x8x1x512x64.rank)
  bcast_S2x8x512x64_S2x8x512x1x64_0_1_2_4 : S2x8x512x64.BroadcastsInDim S2x8x512x1x64 (![0, 1, 2, 4] : Fin 4 → Fin S2x8x512x1x64.rank)
  bcast_S2x8x1x512x64_S2x8x512x512x64_0_1_2_3_4 : S2x8x1x512x64.BroadcastsInDim S2x8x512x512x64 (![0, 1, 2, 3, 4] : Fin 5 → Fin S2x8x512x512x64.rank)
  bcast_S2x8x512x1x64_S2x8x512x512x64_0_1_2_3_4 : S2x8x512x1x64.BroadcastsInDim S2x8x512x512x64 (![0, 1, 2, 3, 4] : Fin 5 → Fin S2x8x512x512x64.rank)
  reducesTo_S2x8x512x512x64_S2x8x512x512_d4 : S2x8x512x512x64.ReducesTo [4] S2x8x512x512
  h_S_ : 0 < S_.numel
  bcast_S_S2x8x512x512 : S_.BroadcastsInDim S2x8x512x512 (![] : Fin 0 → Fin S2x8x512x512.rank)

variable [Facts₀]

class Facts : Prop extends Facts₀ where

variable [Facts]
-- ==== Proof.AccRun.lean ====
/-
  The kernel body as a recurrence. At one grid point (one batch entry b, one head h) the body holds the query block
  x0 : [1, 1, 64, 512] (width on the third axis, the query position t on the last) and the key block
  x1 : [1, 1, 512, 64] (the key position s on the third axis, width on the last). It zeroes a [512, 512] accumulator and
  then, for w = 0, …, 63 in turn, adds to it the matrix |x1[s, w] - x0[w, t]| (a column of keys broadcast along t minus a
  row of queries broadcast along s); at the end it multiplies by the constant -1/8 and stores the product.

  Here that is said once, for every float instance: `step` is one accumulation, `acc` the accumulator after n
  accumulations (by recursion on n), and `body_value` says that what the body leaves in the output block is the scaled
  accumulator after all 64. Nothing here reads a value at an index; that is the next module's.
-/
import proofs.«153121_j78383153152692_1_alg».proof.Proof.Gen.KernelIdeal.Frame
import Idealize.ShloMosaic.Lib.Pipeline.Value
import Idealize.ShloMosaic.Lib.Pipeline.FrameBody
import Idealize.ShloMosaic.Lib.Tactic

set_option maxRecDepth 65536

noncomputable section

open Idealize.ShloMosaic Idealize.ShloMosaic.TcCoe Idealize.SL.Sem

namespace Cert.KernelIdeal.L1

open Cert.KernelIdeal Cert.KernelIdeal.Gen

variable {F : FTy → Type} [FloatOps F]

theorem zero2 : (![0, 0] : Fin 2 → Nat) = fun _ => 0 := funext fun a => by fin_cases a <;> rfl
theorem zero4 : (![0, 0, 0, 0] : Fin 4 → Nat) = fun _ => 0 := funext fun a => by fin_cases a <;> rfl

/-- Row w of the query block lies inside the block: w + 1 ≤ 64 on the width axis, the other three axes whole. -/
theorem row_inb (w : Fin 64) : ∀ a, (![0, 0, w.val, 0] : Fin 4 → Nat) a + S1x1x1x512.size a ≤ S1x1x64x512.size a := fun a =>
  match a with
  | ⟨0, _⟩ => by show (0 : ℕ) + 1 ≤ 1; omega
  | ⟨1, _⟩ => by show (0 : ℕ) + 1 ≤ 1; omega
  | ⟨2, _⟩ => by show w.val + 1 ≤ 64; omega
  | ⟨3, _⟩ => by show (0 : ℕ) + 512 ≤ 512; omega

/-- Column w of the key block lies inside the block: w + 1 ≤ 64 on the width axis, the other three axes whole. -/
theorem col_inb (w : Fin 64) : ∀ a, (![0, 0, 0, w.val] : Fin 4 → Nat) a + S1x1x512x1.size a ≤ S1x1x512x64.size a := fun a =>
  match a with
  | ⟨0, _⟩ => by show (0 : ℕ) + 1 ≤ 1; omega
  | ⟨1, _⟩ => by show (0 : ℕ) + 1 ≤ 1; omega
  | ⟨2, _⟩ => by show (0 : ℕ) + 512 ≤ 512; omega
  | ⟨3, _⟩ => by show w.val + 1 ≤ 64; omega

/-- The row of queries at width index w, as the body loads it from its staging buffer: x0[0, 0, w, :]. -/
def qrow (a2 : Memref sig .tc .vmem S1x1x64x512 .f32) (h2 : a2.IsWhole) (x0 : Vec F S1x1x64x512 .f32) (w : Fin 64) :
    Vec F S1x1x1x512 .f32 :=
  View.readAt (Elt F) a2.view (Rect.unit (s := S1x1x64x512) ![0, 0, w.val, 0] S1x1x1x512.size (row_inb w)).toLoadRect (h2.unread x0)

/-- The column of keys at width index w, as the body loads it from its staging buffer: x1[0, 0, :, w]. -/
def kcol (a3 : Memref sig .tc .vmem S1x1x512x64 .f32) (h3 : a3.IsWhole) (x1 : Vec F S1x1x512x64 .f32) (w : Fin 64) :
    Vec F S1x1x512x1 .f32 :=
  View.readAt (Elt F) a3.view (Rect.unit (s := S1x1x512x64) ![0, 0, 0, w.val] S1x1x512x1.size (col_inb w)).toLoadRect (h3.unread x1)

/-- One accumulation: a ↦ a + |k ⊗ 1 - 1 ⊗ q|, the column k broadcast along the query axis and the row q along the key
    axis (the outer cast is the identity cast of the accumulator's store). -/
def step (q : Vec F S1x1x1x512 .f32) (k : Vec F S1x1x512x1 .f32) (a : Vec F S512x512 .f32) : FVec F S512x512 .f32 :=
  shapeCast S512x512
    (addf a (absf (subf
      (broadcastTo S512x512 (shapeCast S512x1 k shapeCasts_S1x1x512x1_S512x1) broadcasts_S512x1_S512x512)
      (broadcastTo S512x512 (shapeCast S1x512 q shapeCasts_S1x1x1x512_S1x512) broadcasts_S1x512_S512x512))))
    shapeCasts_S512x512_S512x512

/-- The accumulator's first contents: the zero block. -/
def acc0 : FVec F S512x512 .f32 :=
  shapeCast S512x512 (broadcast S512x512 (Scalar.ofBits .f32 0x00000000#32)) shapeCasts_S512x512_S512x512

/-- The accumulator after n accumulations over the rows `q w` and the columns `k w`, w < n. -/
def acc (q : Fin 64 → Vec F S1x1x1x512 .f32) (k : Fin 64 → Vec F S1x1x512x1 .f32) : (n : ℕ) → n ≤ 64 → FVec F S512x512 .f32
  | 0, _ => acc0
  | n + 1, h => step (q ⟨n, h⟩) (k ⟨n, h⟩) (acc q k n (Nat.le_of_succ_le h))

/-- What the body stores at the end: -1/8 times the accumulator, as a [1, 1, 512, 512] block. -/
def scaled (a : Vec F S512x512 .f32) : FVec F S1x1x512x512 .f32 :=
  shapeCast S1x1x512x512 (mulf (broadcast S512x512 (Scalar.ofBits .f32 0xBE000000#32)) a) shapeCasts_S512x512_S1x1x512x512

/-- THE BODY'S VALUE: on any staging buffers, what the body leaves in the output block is the scaled accumulator after all
    64 accumulations. Each read of the accumulator comes after a store that covers it whole, so it reads that store's value. -/
theorem body_value (c : Dev nD) (i : grid0.Coords) (a2 : Memref sig .tc .vmem S1x1x64x512 .f32) (h2 : a2.IsWhole)
    (a3 : Memref sig .tc .vmem S1x1x512x64 .f32) (h3 : a3.IsWhole) (a4 : Memref sig .tc .vmem S1x1x512x512 .f32) (h4 : a4.IsWhole)
    (a5 : Memref sig .tc .vmem S512x512 .f32) (h5 : a5.IsWhole)
    (x0 : Vec F S1x1x64x512 .f32) (x1 : Vec F S1x1x512x64 .f32) :
    out0_A_2 c i a2 h2 a3 h3 a4 h4 a5 h5 x0 x1 = scaled (acc (qrow a2 h2 x0) (kcol a3 h3 x1) 64 le_rfl) := by
  unfold out0_A_2
  rw [View.read_writes_eq_canon _ _ _ (cover0_A_2 c i a2 h2 a3 h3 a4 h4 a5 h5 x0 x1)]
  unfold kernelRun0_A
  dsimp only
  rw [View.canon_unit_zero zero4]
  sl_unfold_run_names
  simp only [View.readCov_cons_toLoadRect]
  rfl

end Cert.KernelIdeal.L1

end
-- ==== Proof.AccValue.lean ====
/-
  The kernel body's value, index by index, at the exact instance. With x0 the query block [1, 1, 64, 512] and x1 the key
  block [1, 1, 512, 64] of one grid point, entry (s, t) of what the body stores is

      c · (z + Σ_w |x1[s, w] - x0[w, t]|),      w over the 64 width indices,

  c the constant -1/8 and z the zero the accumulator starts from (both kept as the words the program spells). A row load
  reads x0 along its last axis and a column load x1 along its third; one accumulation adds one absolute difference to the
  entry; so after n accumulations the entry is z plus the first n differences (induction on n), in the order the body adds
  them, which over the extended reals is their sum.
-/
import proofs.«153121_j78383153152692_1_alg».proof.Proof.AccRun
import Idealize.ShloMosaic.Lib.ValueIdx
import Idealize.ShloMosaic.Lib.Pipeline.Value
import Idealize.ShloMosaic.PureOps.Ideal
import Mathlib.Algebra.BigOperators.Fin

noncomputable section

open Idealize.ShloMosaic Idealize.ShloMosaic.TcCoe Idealize.SL.Sem
open Idealize.ShloMosaic.ValueIdx

namespace Cert.KernelIdeal.L1

open Cert.KernelIdeal Cert.KernelIdeal.Gen

/-- The absolute difference the body adds for key position s, query position t and width index w. -/
def diff (x0 : Vec Ideal S1x1x64x512 .f32) (x1 : Vec Ideal S1x1x512x64 .f32) (s t : Fin 512) (w : Fin 64) : EReal :=
  max (x1 (ix4 0 0 s w) - x0 (ix4 0 0 w t)) (-(x1 (ix4 0 0 s w) - x0 (ix4 0 0 w t)))

/-- A row load reads the query block along its last axis: entry t of row w is x0[0, 0, w, t]. -/
theorem qrow_apply (a2 : Memref sig .tc .vmem S1x1x64x512 .f32) (h2 : a2.IsWhole) (x0 : Vec Ideal S1x1x64x512 .f32)
    (w : Fin 64) (t : Fin 512) : qrow a2 h2 x0 w (ix4 0 0 0 t) = x0 (ix4 0 0 w t) := by
  unfold qrow
  rw [View.readAt_eq_ld, h2.read_unread]
  show x0 _ = x0 _
  congr 1
  funext a
  apply Fin.ext
  match a with
  | ⟨0, _⟩ => show 0 + 1 * 0 = 0; omega
  | ⟨1, _⟩ => show 0 + 1 * 0 = 0; omega
  | ⟨2, _⟩ => show w.val + 1 * 0 = w.val; omega
  | ⟨3, _⟩ => show 0 + 1 * t.val = t.val; omega

/-- A column load reads the key block along its third axis: entry s of column w is x1[0, 0, s, w]. -/
theorem kcol_apply (a3 : Memref sig .tc .vmem S1x1x512x64 .f32) (h3 : a3.IsWhole) (x1 : Vec Ideal S1x1x512x64 .f32)
    (w : Fin 64) (s : Fin 512) : kcol a3 h3 x1 w (ix4 0 0 s 0) = x1 (ix4 0 0 s w) := by
  unfold kcol
  rw [View.readAt_eq_ld, h3.read_unread]
  show x1 _ = x1 _
  congr 1
  funext a
  apply Fin.ext
  match a with
  | ⟨0, _⟩ => show 0 + 1 * 0 = 0; omega
  | ⟨1, _⟩ => show 0 + 1 * 0 = 0; omega
  | ⟨2, _⟩ => show 0 + 1 * s.val = s.val; omega
  | ⟨3, _⟩ => show w.val + 1 * 0 = w.val; omega

/-- The key column broadcast along the query axis: entry (s, t) is the column's entry s. -/
theorem kbcast_apply (k : Vec Ideal S1x1x512x1 .f32) (s t : Fin 512) :
    broadcastTo S512x512 (shapeCast S512x1 k shapeCasts_S1x1x512x1_S512x1) broadcasts_S512x1_S512x512 (ix2 s t)
      = k (ix4 0 0 s 0) := by
  refine (broadcastTo_apply _ broadcasts_S512x1_S512x512 (ix2 s t) (ix2 s 0) (fun a => match a with
    | ⟨0, _⟩ => rfl
    | ⟨1, _⟩ => rfl)).trans ?_
  refine shapeCast_apply k shapeCasts_S1x1x512x1_S512x1 (ix2 s 0) (ix4 0 0 s 0) ?_
  rw [Shape.rowMajor_val_four, Shape.rowMajor_val_two]
  show ((0 * 1 + 0) * 512 + s.val) * 1 + 0 = s.val * 1 + 0
  omega

/-- The query row broadcast along the key axis: entry (s, t) is the row's entry t. -/
theorem qbcast_apply (q : Vec Ideal S1x1x1x512 .f32) (s t : Fin 512) :
    broadcastTo S512x512 (shapeCast S1x512 q shapeCasts_S1x1x1x512_S1x512) broadcasts_S1x512_S512x512 (ix2 s t)
      = q (ix4 0 0 0 t) := by
  refine (broadcastTo_apply _ broadcasts_S1x512_S512x512 (ix2 s t) (ix2 0 t) (fun a => match a with
    | ⟨0, _⟩ => rfl
    | ⟨1, _⟩ => rfl)).trans ?_
  refine shapeCast_apply q shapeCasts_S1x1x1x512_S1x512 (ix2 0 t) (ix4 0 0 0 t) ?_
  rw [Shape.rowMajor_val_four, Shape.rowMajor_val_two]
  show ((0 * 1 + 0) * 1 + 0) * 512 + t.val = 0 * 512 + t.val
  omega

/-- One accumulation at entry (s, t): the entry plus |k[s] - q[t]|. -/
theorem step_apply (q : Vec Ideal S1x1x1x512 .f32) (k : Vec Ideal S1x1x512x1 .f32) (a : Vec Ideal S512x512 .f32) (s t : Fin 512) :
    step q k a (ix2 s t)
      = a (ix2 s t) + max (k (ix4 0 0 s 0) - q (ix4 0 0 0 t)) (-(k (ix4 0 0 s 0) - q (ix4 0 0 0 t))) := by
  unfold step
  rw [shapeCast_self]
  show a (ix2 s t) + max (broadcastTo S512x512 (shapeCast S512x1 k shapeCasts_S1x1x512x1_S512x1) broadcasts_S512x1_S512x512 (ix2 s t)
      - broadcastTo S512x512 (shapeCast S1x512 q shapeCasts_S1x1x1x512_S1x512) broadcasts_S1x512_S512x512 (ix2 s t))
    (-(broadcastTo S512x512 (shapeCast S512x1 k shapeCasts_S1x1x512x1_S512x1) broadcasts_S512x1_S512x512 (ix2 s t)
      - broadcastTo S512x512 (shapeCast S1x512 q shapeCasts_S1x1x1x512_S1x512) broadcasts_S1x512_S512x512 (ix2 s t))) = _
  rw [kbcast_apply, qbcast_apply]

/-- The zero the accumulator starts from, as the program spells it. -/
abbrev z : EReal := (Scalar.ofBits (F := Ideal) .f32 0x00000000#32 : Ideal .f32)

/-- The constant the body scales by, as the program spells it: the word of -1/8. -/
abbrev c : EReal := (Scalar.ofBits (F := Ideal) .f32 0xBE000000#32 : Ideal .f32)

theorem acc0_apply (s t : Fin 512) : acc0 (F := Ideal) (ix2 s t) = z := by
  unfold acc0
  rw [shapeCast_self]
  rfl

/-- After n accumulations entry (s, t) of the accumulator is z plus the first n absolute differences. -/
theorem acc_apply (a2 : Memref sig .tc .vmem S1x1x64x512 .f32) (h2 : a2.IsWhole) (a3 : Memref sig .tc .vmem S1x1x512x64 .f32)
    (h3 : a3.IsWhole) (x0 : Vec Ideal S1x1x64x512 .f32) (x1 : Vec Ideal S1x1x512x64 .f32) (s t : Fin 512) :
    ∀ (n : ℕ) (h : n ≤ 64), acc (qrow a2 h2 x0) (kcol a3 h3 x1) n h (ix2 s t)
      = z + ∑ w : Fin n, diff x0 x1 s t (Fin.castLE h w)
  | 0, _ => by
    show acc0 (F := Ideal) (ix2 s t) = _
    rw [acc0_apply]
    simp
  | n + 1, h => by
    show step _ _ (acc (qrow a2 h2 x0) (kcol a3 h3 x1) n (Nat.le_of_succ_le h)) (ix2 s t) = _
    rw [step_apply, acc_apply a2 h2 a3 h3 x0 x1 s t n (Nat.le_of_succ_le h), qrow_apply, kcol_apply,
      Fin.sum_univ_castSucc, add_assoc]
    rfl

/-- The scaled block at (0, 0, s, t) is c times the accumulator's entry (s, t). -/
theorem scaled_apply (a : Vec Ideal S512x512 .f32) (s t : Fin 512) :
    scaled a (ix4 0 0 s t) = c * a (ix2 s t) := by
  unfold scaled
  refine (shapeCast_apply _ shapeCasts_S512x512_S1x1x512x512 (ix4 0 0 s t) (ix2 s t) ?_).trans rfl
  rw [Shape.rowMajor_val_four, Shape.rowMajor_val_two]
  show s.val * 512 + t.val = ((0 * 1 + 0) * 512 + s.val) * 512 + t.val
  omega

/-- THE BODY'S VALUE AT AN ENTRY: c · (z + Σ_w |x1[s, w] - x0[w, t]|). -/
theorem body_apply (c' : Dev nD) (i : grid0.Coords) (a2 : Memref sig .tc .vmem S1x1x64x512 .f32) (h2 : a2.IsWhole)
    (a3 : Memref sig .tc .vmem S1x1x512x64 .f32) (h3 : a3.IsWhole) (a4 : Memref sig .tc .vmem S1x1x512x512 .f32) (h4 : a4.IsWhole)
    (a5 : Memref sig .tc .vmem S512x512 .f32) (h5 : a5.IsWhole)
    (x0 : Vec Ideal S1x1x64x512 .f32) (x1 : Vec Ideal S1x1x512x64 .f32) (s t : Fin 512) :
    out0_A_2 c' i a2 h2 a3 h3 a4 h4 a5 h5 x0 x1 (ix4 0 0 s t) = c * (z + ∑ w : Fin 64, diff x0 x1 s t w) := by
  rw [body_value, scaled_apply, acc_apply a2 h2 a3 h3 x0 x1 s t 64 le_rfl]
  rfl

end Cert.KernelIdeal.L1

end
-- ==== Proof.Spec.lean ====
/-
  The specification both programs meet. For query and key arrays q, k : [2, 512, 8, 64] (batch, position, head, width) the
  result [2, 8, 512, 512] has at (b, h, s, t), key position s and query position t,

      c · (z + Σ_w |k[b, s, h, w] - q[b, t, h, w]|),      w over the 64 width indices,

  an L1 distance between key s and query t within head h, scaled by c = -1/8. The constant c and the zero z the sum starts
  from are kept as the words both programs spell (0xBE000000 and 0x00000000): the same word on both sides is never
  evaluated. The absolute value is `max x (-x)`, the exact instance's.
-/
import Idealize.ShloMosaic.PureOps.Ideal
import Idealize.ShloMosaic.Lib.ValueIdx

noncomputable section

open Idealize.ShloMosaic Idealize.ShloMosaic.ValueIdx

namespace Cert.L1Spec

abbrev ArgShape : Shape := ⟨4, ![2, 512, 8, 64]⟩
abbrev OutShape : Shape := ⟨4, ![2, 8, 512, 512]⟩

/-- The scale, -1/8, as its word. -/
abbrev c : EReal := Ideal.ofBits .f32 0xBE000000#32
/-- The zero a sum starts from, as its word. -/
abbrev z : EReal := Ideal.ofBits .f32 0x00000000#32

/-- One entry of the result. -/
def entry (q k : Vec Ideal ArgShape .f32) (b : Fin 2) (h : Fin 8) (s t : Fin 512) : EReal :=
  c * (z + ∑ w : Fin 64, max (k (ix4 b s h w) - q (ix4 b t h w)) (-(k (ix4 b s h w) - q (ix4 b t h w))))

/-- The result array. -/
def G (q k : Vec Ideal ArgShape .f32) : Vec Ideal OutShape .f32 := fun i => entry q k (i 0) (i 1) (i 2) (i 3)

theorem G_apply (q k : Vec Ideal ArgShape .f32) (b : Fin 2) (h : Fin 8) (s t : Fin 512) :
    G q k (ix4 b h s t) = entry q k b h s t := rfl

end Cert.L1Spec

end
-- ==== Proof.KernelArray.lean ====
/-
  From blocks to the array, for the kernel. The grid is (batch, head) = 2 × 8 points; at point (b, h) the query window
  stages block (b, h, 0, 0) of the transposed queries qT : [2, 8, 64, 512], the key window block (b, h, 0, 0) of the
  transposed keys kT : [2, 8, 512, 64], and the output window writes back block (b, h, 0, 0), of [1, 1, 512, 512], of the
  result. So entry (s, t) of the block a point writes is entry (b, h, s, t) of ONE function of the two transposed arrays,

      H qT kT (b, h, s, t) = c · (z + Σ_w |kT[b, h, s, w] - qT[b, h, w, t]|),

  the 16 blocks tile the result, and the result array ends holding H. The host transposes before the call are
  qT[b, h, w, t] = q[b, t, h, w] and kT[b, h, s, w] = k[b, s, h, w], which makes H of them the specification of the
  arguments.
-/
import proofs.«153121_j78383153152692_1_alg».proof.Proof.AccValue
import proofs.«153121_j78383153152692_1_alg».proof.Proof.Spec
import proofs.«153121_j78383153152692_1_alg».proof.Proof.Gen.KernelIdeal.Value
import Idealize.ShloMosaic.Lib.StableHlo.Run

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.L1

open Cert.KernelIdeal Cert.KernelIdeal.Gen

variable (m : (ℓ : Loc nD τ sig) → Buf (Elt Ideal) ℓ) (ρ : Dev nD → PrngReg)

/-- The result as one function of the transposed arrays the region finds. -/
def H (qT : Vec Ideal S2x8x64x512 .f32) (kT : Vec Ideal S2x8x512x64 .f32) : Vec Ideal S2x8x512x512 .f32 := fun i =>
  c * (z + ∑ w : Fin 64, max (kT (ix4 (i 0) (i 1) (i 2) w) - qT (ix4 (i 0) (i 1) w (i 3)))
    (-(kT (ix4 (i 0) (i 1) (i 2) w) - qT (ix4 (i 0) (i 1) w (i 3)))))

/-- H at (b, h, s, t), spelt out. -/
theorem H_apply (qT : Vec Ideal S2x8x64x512 .f32) (kT : Vec Ideal S2x8x512x64 .f32) (b : Fin 2) (h : Fin 8) (s t : Fin 512) :
    H qT kT (ix4 b h s t)
      = c * (z + ∑ w : Fin 64, max (kT (ix4 b h s w) - qT (ix4 b h w t)) (-(kT (ix4 b h s w) - qT (ix4 b h w t)))) := rfl

/-- The three index maps over the 16 grid points: all three windows sit at block (b, h, 0, 0) of their arrays. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (2 : Fin 4) = 0 ∧ win0_2.index t (3 : Fin 4) = 0 :=
  (by decide +kernel : ∀ t : Fin grid0.N, _)

/-- Every (batch, head) pair is some point's output block. -/
theorem idx_onto : ∀ (b : Fin 2) (h : Fin 8), ∃ t : Fin cfg0.N, win0_2.index t = ![b.val, h.val, 0, 0] :=
  (by decide +kernel : ∀ (b : Fin 2) (h : Fin 8), ∃ t : Fin grid0.N, win0_2.index t = ![b.val, h.val, 0, 0])

/-- An index of an output block has its first two coordinates zero. -/
theorem eq_block_ix (j : S1x1x512x512.Idx) : j = ix4 0 0 (j 2) (j 3) := by
  have h0 : (j 0).val < 1 := (j 0).isLt
  have h1 : (j 1).val < 1 := (j 1).isLt
  funext a
  match a with
  | ⟨0, _⟩ => exact Fin.ext (by show (j 0).val = 0; omega)
  | ⟨1, _⟩ => exact Fin.ext (by show (j 1).val = 0; omega)
  | ⟨2, _⟩ => rfl
  | ⟨3, _⟩ => rfl

/-- Entry j of what point t's body leaves in the output block is H of the region's arrays at j's place in the array. -/
theorem block_entry (c' : Dev nD) (t : Fin cfg0.N) (j : S1x1x512x512.Idx) :
    out0_A_2 c' (grid0.coords t) (ms0_0 t) (hs0_0 t) (ms0_1 t) (hs0_1 t) (ms0_2 t) (hs0_2 t) scM0_0 (Memref.isWhole_whole _)
        (iblk m c' 0 t) (iblk m c' 1 t) j
      = H (V m c' main_v0) (V m c' main_v1) (((cfg0.win 2).blk t).view.emb j) := by
  obtain ⟨e00, e01, e02, e03, e10, e11, e12, e13, e22, e23⟩ := idx_facts t
  obtain ⟨s, t', rfl⟩ : ∃ s t' : Fin 512, j = ix4 0 0 s t' := ⟨j 2, j 3, eq_block_ix j⟩
  refine (body_apply c' (grid0.coords t) (ms0_0 t) (hs0_0 t) (ms0_1 t) (hs0_1 t) (ms0_2 t) (hs0_2 t) scM0_0
    (Memref.isWhole_whole _) (iblk m c' 0 t) (iblk m c' 1 t) s t').trans ?_
  unfold H
  refine congrArg (c * ·) (congrArg (z + ·) (Finset.sum_congr rfl fun w _ => ?_))
  unfold diff
  have hk : iblk m c' 1 t (ix4 0 0 s w)
      = V m c' main_v1 (ix4 ((((cfg0.win 2).blk t).view.emb (ix4 0 0 s t')) 0) ((((cfg0.win 2).blk t).view.emb (ix4 0 0 s t')) 1)
          ((((cfg0.win 2).blk t).view.emb (ix4 0 0 s t')) 2) w) := by
    show V m c' main_v1 (((cfg0.win 1).blk t).view.emb (ix4 0 0 s w)) = _
    refine congrArg (V m c' main_v1) (funext fun a => Fin.ext ?_)
    match a with
    | ⟨0, _⟩ => show win0_1.index t (0 : Fin 4) * 1 + 1 * 0 = win0_2.index t (0 : Fin 4) * 1 + 1 * 0; omega
    | ⟨1, _⟩ => show win0_1.index t (1 : Fin 4) * 1 + 1 * 0 = win0_2.index t (1 : Fin 4) * 1 + 1 * 0; omega
    | ⟨2, _⟩ => show win0_1.index t (2 : Fin 4) * 512 + 1 * s.val = win0_2.index t (2 : Fin 4) * 512 + 1 * s.val; omega
    | ⟨3, _⟩ => show win0_1.index t (3 : Fin 4) * 64 + 1 * w.val = w.val; omega
  have hq : iblk m c' 0 t (ix4 0 0 w t')
      = V m c' main_v0 (ix4 ((((cfg0.win 2).blk t).view.emb (ix4 0 0 s t')) 0) ((((cfg0.win 2).blk t).view.emb (ix4 0 0 s t')) 1)
          w ((((cfg0.win 2).blk t).view.emb (ix4 0 0 s t')) 3)) := by
    show V m c' main_v0 (((cfg0.win 0).blk t).view.emb (ix4 0 0 w t')) = _
    refine congrArg (V m c' main_v0) (funext fun a => Fin.ext ?_)
    match a with
    | ⟨0, _⟩ => show win0_0.index t (0 : Fin 4) * 1 + 1 * 0 = win0_2.index t (0 : Fin 4) * 1 + 1 * 0; omega
    | ⟨1, _⟩ => show win0_0.index t (1 : Fin 4) * 1 + 1 * 0 = win0_2.index t (1 : Fin 4) * 1 + 1 * 0; omega
    | ⟨2, _⟩ => show win0_0.index t (2 : Fin 4) * 64 + 1 * w.val = w.val; omega
    | ⟨3, _⟩ => show win0_0.index t (3 : Fin 4) * 512 + 1 * t'.val = win0_2.index t (3 : Fin 4) * 512 + 1 * t'.val; omega
  rw [hk, hq]

/-- WHAT POINT t WRITES BACK is block t of H of the arrays the region finds. -/
theorem flushed_eq (c' : Dev nD) (t : Fin cfg0.N) :
    (dats m 0 c').flushed 2 t = ((cfg0.win 2).blk t).view.read (Elt Ideal) (H (V m c' main_v0) (V m c' main_v1)) := by
  rw [Value.flushed2_A]
  funext j
  exact block_entry m c' t j

/-- An index of the result is in point t's block iff each coordinate is in the block's range on its axis. -/
theorem mem_blk (t : Fin cfg0.N) (i : S2x8x512x512.Idx) :
    i ∈ ((cfg0.win 2).blk t).view.set ↔ ∀ a : Fin 4, win0_2.index t a * S1x1x512x512.size a ≤ (i a).val
      ∧ (i a).val < win0_2.index t a * S1x1x512x512.size a + S1x1x512x512.size a := by
  show i ∈ ((View.whole main_v2).slice (win0_2.rect t)).set ↔ _
  rw [View.set_slice_whole, Rect.mem_set_unit]
  exact Iff.rfl

/-- The 16 blocks tile the result: index (b, h, s, t) lies in the block of the point whose block index is (b, h, 0, 0). -/
theorem cover (i : S2x8x512x512.Idx) :
    ∃ t : Fin cfg0.N, (cfg0.win 2).flush t = true ∧ i ∈ ((cfg0.win 2).blk t).view.set := by
  have hi0 : (i 0).val < 2 := (i 0).isLt
  have hi1 : (i 1).val < 8 := (i 1).isLt
  have hi2 : (i 2).val < 512 := (i 2).isLt
  have hi3 : (i 3).val < 512 := (i 3).isLt
  obtain ⟨t, ht⟩ := idx_onto ⟨(i 0).val, hi0⟩ ⟨(i 1).val, hi1⟩
  have q0 : win0_2.index t (0 : Fin 4) = (i 0).val := congrFun ht 0
  have q1 : win0_2.index t (1 : Fin 4) = (i 1).val := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 512 ≤ (i 2).val ∧ (i 2).val < win0_2.index t (2 : Fin 4) * 512 + 512; omega
  | ⟨3, _⟩ => show win0_2.index t (3 : Fin 4) * 512 ≤ (i 3).val ∧ (i 3).val < win0_2.index t (3 : Fin 4) * 512 + 512; omega

/-- THE RESULT ARRAY after the run is H of the arrays the region finds. -/
theorem final (c' : Dev nD) : (dats m 0 c').arrAt 2 cfg0.N = H (V m c' main_v0) (V m c' main_v1) :=
  (dats m 0 c').arrAt_eq_of_cover 2 (H (V m c' main_v0) (V m c' main_v1)) (fun t _ => flushed_eq m c' t) cover

/-- The region finds the queries transposed to (batch, head, width, position). -/
theorem qT_eq (c' : Dev nD) : (V m c' main_v0 : S2x8x64x512.Idx → EReal)
    = transpose S2x8x64x512 [0, 2, 3, 1] (m ((c' : Thread nD τ).loc main_arg0)) transposes_S2x512x8x64_S2x8x64x512_0_2_3_1 := by
  dsimp only [Gen.V, Gen.hostOps0]; after_results

/-- The region finds the keys transposed to (batch, head, position, width). -/
theorem kT_eq (c' : Dev nD) : (V m c' main_v1 : S2x8x512x64.Idx → EReal)
    = transpose S2x8x512x64 [0, 2, 1, 3] (m ((c' : Thread nD τ).loc main_arg1)) transposes_S2x512x8x64_S2x8x512x64_0_2_1_3 := by
  dsimp only [Gen.V, Gen.hostOps0]; after_results

/-- H of the transposed arrays is the specification of the arguments. -/
theorem H_eq_spec (c' : Dev nD) : H (V m c' main_v0) (V m c' main_v1)
    = Cert.L1Spec.G (m ((c' : Thread nD τ).loc main_arg0)) (m ((c' : Thread nD τ).loc main_arg1)) := by
  funext i
  obtain ⟨b, h, s, t, rfl⟩ : ∃ (b : Fin 2) (h : Fin 8) (s t : Fin 512), i = ix4 b h s t := ⟨i 0, i 1, i 2, i 3, eq_ix4 i⟩
  rw [Cert.L1Spec.G_apply, H_apply]
  unfold Cert.L1Spec.entry
  refine congrArg (c * ·) (congrArg (z + ·) (Finset.sum_congr rfl fun w _ => ?_))
  have hk : V m c' main_v1 (ix4 b h s w) = m ((c' : Thread nD τ).loc main_arg1) (ix4 b s h w) := by
    rw [kT_eq]
    exact transpose_apply [0, 2, 1, 3] _ transposes_S2x512x8x64_S2x8x512x64_0_2_1_3 (ix4 b h s w) (ix4 b s h w) (fun a => match a with
      | ⟨0, _⟩ => rfl
      | ⟨1, _⟩ => rfl
      | ⟨2, _⟩ => rfl
      | ⟨3, _⟩ => rfl)
  have hq : V m c' main_v0 (ix4 b h w t) = m ((c' : Thread nD τ).loc main_arg0) (ix4 b t h w) := by
    rw [qT_eq]
    exact transpose_apply [0, 2, 3, 1] _ transposes_S2x512x8x64_S2x8x64x512_0_2_3_1 (ix4 b h w t) (ix4 b t h w) (fun a => match a with
      | ⟨0, _⟩ => rfl
      | ⟨1, _⟩ => rfl
      | ⟨2, _⟩ => rfl
      | ⟨3, _⟩ => rfl)
  rw [hk, hq]

/-- THE KERNEL'S RUN, READ: every weakly fair execution terminates with the result array at the specification of the
    arguments and the arguments unchanged. -/
theorem run : θ_run defs (onTc (τ := τ) (main (F := Ideal))) ⟨m, fun _ => 0, ρ⟩ fun r => ∀ c' : Dev nD,
      r.2.mem ((c' : Thread nD τ).loc main_v2)
        = Cert.L1Spec.G (m ((c' : Thread nD τ).loc main_arg0)) (m ((c' : Thread nD τ).loc main_arg1))
      ∧ r.2.mem ((c' : Thread nD τ).loc main_arg0) = m ((c' : Thread nD τ).loc main_arg0)
      ∧ r.2.mem ((c' : Thread nD τ).loc main_arg1) = m ((c' : Thread nD τ).loc main_arg1) :=
  (θ_run defs _ _).mono (fun r h c' => ⟨((h c').1.trans (final m c')).trans (H_eq_spec m c'), (h c').2⟩)
    (Value.run_blocks m ρ)

end Cert.KernelIdeal.L1

end
-- ==== Proof.AbsDiff.lean ====
/-
  The one law on which the two programs meet. At the exact instance the absolute value of a float is `max x (-x)` on the
  extended reals and a difference is the extended reals' `x - y`. The kernel accumulates |k - q|, the reference |q - k|.
  For real numbers the two are equal because -(k - q) = q - k. At the infinities the difference of two equal infinities is
  -∞ whichever way round it is taken, and every other difference with an infinite term is +∞ one way round and -∞ the
  other; in each case both absolute values are +∞. So the law holds for ALL extended reals, and nothing downstream needs
  the inputs to be finite.
-/
import Mathlib.Data.EReal.Operations

namespace Cert.L1Algebra

/-- |a - b| = |b - a| on the extended reals, the absolute value spelt `max x (-x)`. -/
theorem abs_sub_swap (a b : EReal) : max (a - b) (-(a - b)) = max (b - a) (-(b - a)) := by
  induction a using EReal.rec with
  | bot =>
    induction b using EReal.rec with
    | bot => rfl
    | coe y => simp
    | top => simp
  | coe x =>
    induction b using EReal.rec with
    | bot => simp
    | coe y =>
      rw [← EReal.coe_sub, ← EReal.coe_sub, ← EReal.coe_neg, ← EReal.coe_neg, neg_sub, neg_sub, max_comm]
    | top => simp
  | top =>
    induction b using EReal.rec with
    | bot => simp
    | coe y => simp
    | top => rfl

end Cert.L1Algebra
-- ==== Proof.RefValue.lean ====
/-
  The reference is the specification. The reference transposes both arguments to (batch, head, position, width), broadcasts
  the queries along a new key axis and the keys along a new query axis, subtracts, takes absolute values, sums over the width
  axis starting from zero, and multiplies by -1/8. Read at (b, h, s, t) through its thirteen operations, outermost first,
  that is

      c · (z + Σ_w |q[b, t, h, w] - k[b, s, h, w]|),

  the specification's entry with each difference taken the other way round; the absolute values agree on all extended reals.
-/
import proofs.«153121_j78383153152692_1_alg».proof.Proof.Gen.ReferenceIdeal.Read
import proofs.«153121_j78383153152692_1_alg».proof.Proof.Spec
import proofs.«153121_j78383153152692_1_alg».proof.Proof.AbsDiff
import Idealize.ShloMosaic.Lib.ValueIdx

noncomputable section

open Idealize.ShloMosaic Idealize.ShloMosaic.TcCoe Idealize.SL.Sem
open Idealize.ShloMosaic.ValueIdx

namespace Cert.ReferenceIdeal.L1

open Cert.ReferenceIdeal Cert.ReferenceIdeal.Gen Cert.ReferenceIdeal.Read

/-- The reference's last stage is the specification of its arguments. -/
theorem ref_eq_spec (q k : (⟨S2x512x8x64, .f32⟩ : BufTy).Contents (Elt Ideal)) :
    val_main_v10 (F := Ideal) q k = Cert.L1Spec.G q k := by
  funext i
  obtain ⟨b, h, s, t, rfl⟩ : ∃ (b : Fin 2) (h : Fin 8) (s t : Fin 512), i = ix4 b h s t := ⟨i 0, i 1, i 2, i 3, eq_ix4 i⟩
  rw [Cert.L1Spec.G_apply, val_main_v10_apply, val_main_v9_apply, val_main_cst_0_apply, val_main_v8_apply, val_main_cst_apply]
  unfold Cert.L1Spec.entry
  refine congrArg (Cert.L1Spec.c * ·) (congrArg (Cert.L1Spec.z + ·) (Finset.sum_congr rfl fun w _ => ?_))
  rw [val_main_v7_apply, val_main_v6_apply, val_main_v4_apply, val_main_v5_apply, val_main_v2_apply, val_main_v3_apply,
    val_main_v0_apply, val_main_v1_apply]
  have iq : idx_main_v0 (idx_main_v2 (idx_main_v4 (idx_main_v8 (ix4 b h s t) w))) = ix4 b t h w :=
    funext fun a => Fin.ext (by match a with | ⟨0, _⟩ => rfl | ⟨1, _⟩ => rfl | ⟨2, _⟩ => rfl | ⟨3, _⟩ => rfl)
  have ik : idx_main_v1 (idx_main_v3 (idx_main_v5 (idx_main_v8 (ix4 b h s t) w))) = ix4 b s h w :=
    funext fun a => Fin.ext (by match a with | ⟨0, _⟩ => rfl | ⟨1, _⟩ => rfl | ⟨2, _⟩ => rfl | ⟨3, _⟩ => rfl)
  rw [iq, ik]
  exact Cert.L1Algebra.abs_sub_swap (q (ix4 b t h w)) (k (ix4 b s h w))

end Cert.ReferenceIdeal.L1

end
-- ==== Proof.lean ====
/-
  An L1 attention score. For queries and keys q, k : [2, 512, 8, 64] (batch, position, head, width) the result
  [2, 8, 512, 512] holds at (b, h, s, t), key position s and query position t,

      -1/8 · Σ_w |q[b, t, h, w] - k[b, s, h, w]|        (-1/8 = -1/√64, an exact binary fraction in both programs).

  The kernel runs one grid point per (batch, head): it holds that head's queries as a [64, 512] block (width by position)
  and its keys as a [512, 64] block, zeroes a [512, 512] accumulator, adds |k[s, w] - q[w, t]| for w = 0, …, 63 in turn, and
  stores -1/8 times the accumulator as block (b, h) of the result. The reference forms the [2, 8, 512, 512, 64] array of all
  differences q - k, takes absolute values, sums the last axis and scales.

  Over the extended reals the two agree entry by entry: addition there is commutative and associative, so the kernel's
  ordered chain of 64 additions onto zero is the reference's sum; and |k - q| = |q - k| for every pair of extended reals,
  the infinities included (Proof/AbsDiff.lean). So the proof never uses that the inputs are finite.

  The pieces: Proof/AccRun.lean (the kernel body as a recurrence: what it stores is the scaled accumulator after 64 steps),
  Proof/AccValue.lean (that value entry by entry), Proof/KernelArray.lean (from the 16 blocks to the result array, and the
  host transposes), Proof/Spec.lean (the common specification), Proof/RefValue.lean (the reference is the specification).
  No operation of the kernel is rewritten for its exact reading: the idealized kernel is the kernel's own text read over the
  extended reals.
-/
import proofs.«153121_j78383153152692_1_alg».proof.Defs
import proofs.«153121_j78383153152692_1_alg».proof.Proof.Gen.Kernel
import proofs.«153121_j78383153152692_1_alg».proof.Proof.Gen.Kernel.Frame
import proofs.«153121_j78383153152692_1_alg».proof.Proof.Gen.KernelIdeal
import proofs.«153121_j78383153152692_1_alg».proof.Proof.Gen.KernelIdeal.Frame
import proofs.«153121_j78383153152692_1_alg».proof.Proof.Gen.KernelIdeal.Value
import proofs.«153121_j78383153152692_1_alg».proof.Proof.Gen.ReferenceIdeal
import proofs.«153121_j78383153152692_1_alg».proof.Proof.Gen.ReferenceIdeal.Run
import proofs.«153121_j78383153152692_1_alg».proof.Proof.Gen.ReferenceIdeal.Read
import proofs.«153121_j78383153152692_1_alg».proof.Proof.Gen.Pre_finite_inputs
import proofs.«153121_j78383153152692_1_alg».proof.Proof.KernelArray
import proofs.«153121_j78383153152692_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as they were. -/
theorem frame_kernel : Cert.frame_Kernel := fun m ρ _ => Cert.Kernel.Gen.frame m ρ

/-- So does its exact reading. -/
theorem frame_kernelIdeal : Cert.frame_KernelIdeal := fun m ρ _ => Cert.KernelIdeal.Gen.frame m ρ

/-- The reference has no kernel: its run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten for the exact reading. -/
theorem preserves : Cert.preserves_Kernel_KernelIdeal := trivial

/-- From memories that agree on q and k both programs end with the specification of q and k as their result. -/
theorem algebraic : Cert.algebraic_KernelIdeal_ReferenceIdeal := by
  intro m ρ m' ρ' _ hagree
  refine ⟨_, Cert.KernelIdeal.L1.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v10_eq _ _).trans (Cert.ReferenceIdeal.L1.ref_eq_spec _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
